-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_inv_2gw" .f32 0xBFD55555#32 ((-8388608 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x256x256 : Shape := ⟨4, ![16, 3, 256, 256]⟩
abbrev S32x3 : Shape := ⟨2, ![32, 3]⟩
abbrev S_ : Shape := ⟨0, ![]⟩

class Facts : Prop where
  bcast_S_S16x3x256x256 : S_.BroadcastsInDim S16x3x256x256 (![] : Fin 0 → Fin S16x3x256x256.rank)
  reducesTo_S16x3x256x256_S_d0_1_2_3 : S16x3x256x256.ReducesTo [0, 1, 2, 3] S_
  h_S_ : 0 < S_.numel
  bcast_S_S32x3 : S_.BroadcastsInDim S32x3 (![] : Fin 0 → Fin S32x3.rank)
  reducesTo_S32x3_S_d0_1 : S32x3.ReducesTo [0, 1] S_

variable [Facts]

def fn {F : FTy → Type} [FloatOps F] (main_arg0 : FVec F S16x3x256x256 .f32) (main_arg1 : FVec F S32x3 .f32) : IVec S_ 1 :=
  let main_v0 : FVec F S16x3x256x256 .f32 := Host.absf main_arg0
  let main_cst : FVec F S_ .f32 := constant S_ .f32 0x7F800000#32
  let main_v1 : FVec F S16x3x256x256 .f32 := broadcastInDim S16x3x256x256 ![] bcast_S_S16x3x256x256 main_cst
  let main_v2 : IVec S16x3x256x256 1 := cmpf .olt main_v0 main_v1
  let main_c : IVec S_ 1 := constantI S_ 1 1#1
  let main_v3 : IVec S_ 1 := (fun x v => Host.reduce IntOp.andi x v reducesTo_S16x3x256x256_S_d0_1_2_3 h_S_) main_v2 main_c
  let main_v4 : FVec F S32x3 .f32 := Host.absf main_arg1
  let main_cst_0 : FVec F S_ .f32 := constant S_ .f32 0x7F800000#32
  let main_v5 : FVec F S32x3 .f32 := broadcastInDim S32x3 ![] bcast_S_S32x3 main_cst_0
  let main_v6 : IVec S32x3 1 := cmpf .olt main_v4 main_v5
  let main_c_1 : IVec S_ 1 := constantI S_ 1 1#1
  let main_v7 : IVec S_ 1 := (fun x v => Host.reduce IntOp.andi x v reducesTo_S32x3_S_d0_1 h_S_) main_v6 main_c_1
  let main_v8 : IVec S_ 1 := andi main_v3 main_v7
  main_v8
-- ==== Kernel.lean ====
abbrev S16x3x256x256 : Shape := ⟨4, ![16, 3, 256, 256]⟩
abbrev S32x3 : Shape := ⟨2, ![32, 3]⟩
abbrev S16x32 : Shape := ⟨2, ![16, 32]⟩
abbrev S8x3x16x256 : Shape := ⟨4, ![8, 3, 16, 256]⟩
abbrev S8x32 : Shape := ⟨2, ![8, 32]⟩
abbrev S8x1x16x256 : Shape := ⟨4, ![8, 1, 16, 256]⟩
abbrev S8x16x256 : Shape := ⟨3, ![8, 16, 256]⟩
abbrev S32x1 : Shape := ⟨2, ![32, 1]⟩
abbrev S32 : Shape := ⟨1, ![32]⟩
abbrev S1x32x1x1 : Shape := ⟨4, ![1, 32, 1, 1]⟩
abbrev S8x32x16x256 : Shape := ⟨4, ![8, 32, 16, 256]⟩
abbrev S8x32x16 : Shape := ⟨3, ![8, 32, 16]⟩

abbrev nBuf : Space → Nat
  | .hbm => 3
  | .vmem => 5
  | .smem => 0
  | _ => 0

abbrev bufTy : (tb : Table) → Fin (tcTables nBuf tb) → BufTy
  | .hbm, ⟨0, _⟩ => ⟨S16x3x256x256, .f32⟩
  | .hbm, ⟨1, _⟩ => ⟨S32x3, .f32⟩
  | .hbm, ⟨2, _⟩ => ⟨S16x32, .f32⟩
  | .local _ .vmem, ⟨0, _⟩ => ⟨S8x3x16x256, .f32⟩
  | .local _ .vmem, ⟨1, _⟩ => ⟨S8x3x16x256, .f32⟩
  | .local _ .vmem, ⟨2, _⟩ => ⟨S32x3, .f32⟩
  | .local _ .vmem, ⟨3, _⟩ => ⟨S8x32, .f32⟩
  | .local _ .vmem, ⟨4, _⟩ => ⟨S8x32, .f32⟩
  | _, _ => ⟨S16x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x3x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x32_S8x32_0_0 : ∀ a, (![0, 0] : Fin 2 → Nat) a + S8x32.size a ≤ S8x32.size a
  h_S8x32 : 0 < S8x32.numel
  inb_S8x3x16x256_S8x3x16x256_0_0_0_0 : ∀ a, (![0, 0, 0, 0] : Fin 4 → Nat) a + S8x3x16x256.size a ≤ S8x3x16x256.size a
  h_S8x3x16x256 : 0 < S8x3x16x256.numel
  inb_S32x3_S32x3_0_0 : ∀ a, (![0, 0] : Fin 2 → Nat) a + S32x3.size a ≤ S32x3.size a
  h_S32x3 : 0 < S32x3.numel
  slices_S8x3x16x256_o0_0_0_0_S8x1x16x256 : S8x3x16x256.Slices ![0, 0, 0, 0] S8x1x16x256
  shapeCasts_S8x1x16x256_S8x16x256 : S8x1x16x256.ShapeCasts S8x16x256
  slices_S32x3_o0_0_S32x1 : S32x3.Slices ![0, 0] S32x1
  shapeCasts_S32x1_S32 : S32x1.ShapeCasts S32
  shapeCasts_S8x16x256_S8x1x16x256 : S8x16x256.ShapeCasts S8x1x16x256
  shapeCasts_S32_S1x32x1x1 : S32.ShapeCasts S1x32x1x1
  broadcasts_S8x1x16x256_S8x32x16x256 : S8x1x16x256.Broadcasts S8x32x16x256
  broadcasts_S1x32x1x1_S8x32x16x256 : S1x32x1x1.Broadcasts S8x32x16x256
  slices_S8x3x16x256_o0_1_0_0_S8x1x16x256 : S8x3x16x256.Slices ![0, 1, 0, 0] S8x1x16x256
  slices_S32x3_o0_1_S32x1 : S32x3.Slices ![0, 1] S32x1
  slices_S8x3x16x256_o0_2_0_0_S8x1x16x256 : S8x3x16x256.Slices ![0, 2, 0, 0] S8x1x16x256
  slices_S32x3_o0_2_S32x1 : S32x3.Slices ![0, 2] S32x1
  reduces_S8x32x16x256_S8x32x16 : S8x32x16x256.Reduces [3] S8x32x16
  reduces_S8x32x16_S8x32 : S8x32x16.Reduces [2] S8x32
  shapeCasts_S8x32_S8x32 : S8x32.ShapeCasts S8x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x16x256.size a ≤ S16x3x256x256.size a
  hwx0_0 : ∀ i : grid0.Coords, EltTy.bits .f32 = 32 ∨ (Rect.block (s := S16x3x256x256) S8x3x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3.size a ≤ S32x3.size a
  hwx0_1 : ∀ i : grid0.Coords, EltTy.bits .f32 = 32 ∨ (Rect.block (s := S32x3) S32x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S16x32.size a
  hwx0_2 : ∀ i : grid0.Coords, EltTy.bits .f32 = 32 ∨ (Rect.block (s := S16x32) S8x32.size (cc0_transform_2 i) (hinb0_2 i)).WholeWords (EltTy.packing .f32)

variable [Facts₀]

abbrev win0_0 : Pipeline.Window sig grid0 :=
  Pipeline.Window.ofSpec (Memref.whole main_arg0) S8x3x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x256x256 : Shape := ⟨4, ![16, 3, 256, 256]⟩
abbrev S32x3 : Shape := ⟨2, ![32, 3]⟩
abbrev S16x1x3x256x256 : Shape := ⟨5, ![16, 1, 3, 256, 256]⟩
abbrev S1x32x3x1x1 : Shape := ⟨5, ![1, 32, 3, 1, 1]⟩
abbrev S16x32x3x256x256 : Shape := ⟨5, ![16, 32, 3, 256, 256]⟩
abbrev S_ : Shape := ⟨0, ![]⟩
abbrev S16x32x256x256 : Shape := ⟨4, ![16, 32, 256, 256]⟩
abbrev S16x32 : Shape := ⟨2, ![16, 32]⟩

abbrev nBuf : Space → Nat
  | .hbm => 23
  | .vmem => 0
  | .smem => 0
  | _ => 0

abbrev bufTy : (tb : Table) → Fin (tcTables nBuf tb) → BufTy
  | .hbm, ⟨0, _⟩ => ⟨S16x3x256x256, .f32⟩
  | .hbm, ⟨1, _⟩ => ⟨S32x3, .f32⟩
  | .hbm, ⟨2, _⟩ => ⟨S16x1x3x256x256, .f32⟩
  | .hbm, ⟨3, _⟩ => ⟨S1x32x3x1x1, .f32⟩
  | .hbm, ⟨4, _⟩ => ⟨S16x32x3x256x256, .f32⟩
  | .hbm, ⟨5, _⟩ => ⟨S16x32x3x256x256, .f32⟩
  | .hbm, ⟨6, _⟩ => ⟨S16x32x3x256x256, .f32⟩
  | .hbm, ⟨7, _⟩ => ⟨S16x32x3x256x256, .f32⟩
  | .hbm, ⟨8, _⟩ => ⟨S_, .f32⟩
  | .hbm, ⟨9, _⟩ => ⟨S16x32x256x256, .f32⟩
  | .hbm, ⟨10, _⟩ => ⟨S_, .f32⟩
  | .hbm, ⟨11, _⟩ => ⟨S16x32x256x256, .f32⟩
  | .hbm, ⟨12, _⟩ => ⟨S16x32x256x256, .f32⟩
  | .hbm, ⟨13, _⟩ => ⟨S16x32x256x256, .f32⟩
  | .hbm, ⟨14, _⟩ => ⟨S_, .f32⟩
  | .hbm, ⟨15, _⟩ => ⟨S16x32x256x256, .f32⟩
  | .hbm, ⟨16, _⟩ => ⟨S16x32x256x256, .f32⟩
  | .hbm, ⟨17, _⟩ => ⟨S16x32x256x256, .f32⟩
  | .hbm, ⟨18, _⟩ => ⟨S_, .f32⟩
  | .hbm, ⟨19, _⟩ => ⟨S16x32, .f32⟩
  | .hbm, ⟨20, _⟩ => ⟨S_, .f32⟩
  | .hbm, ⟨21, _⟩ => ⟨S16x32, .f32⟩
  | .hbm, ⟨22, _⟩ => ⟨S16x32, .f32⟩
  | _, _ => ⟨S16x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S16x3x256x256_S16x1x3x256x256_0_2_3_4 : S16x3x256x256.BroadcastsInDim S16x1x3x256x256 (![0, 2, 3, 4] : Fin 4 → Fin S16x1x3x256x256.rank)
  bcast_S32x3_S1x32x3x1x1_1_2 : S32x3.BroadcastsInDim S1x32x3x1x1 (![1, 2] : Fin 2 → Fin S1x32x3x1x1.rank)
  bcast_S16x1x3x256x256_S16x32x3x256x256_0_1_2_3_4 : S16x1x3x256x256.BroadcastsInDim S16x32x3x256x256 (![0, 1, 2, 3, 4] : Fin 5 → Fin S16x32x3x256x256.rank)
  bcast_S1x32x3x1x1_S16x32x3x256x256_0_1_2_3_4 : S1x32x3x1x1.BroadcastsInDim S16x32x3x256x256 (![0, 1, 2, 3, 4] : Fin 5 → Fin S16x32x3x256x256.rank)
  reducesTo_S16x32x3x256x256_S16x32x256x256_d2 : S16x32x3x256x256.ReducesTo [2] S16x32x256x256
  h_S_ : 0 < S_.numel
  bcast_S_S16x32x256x256 : S_.BroadcastsInDim S16x32x256x256 (![] : Fin 0 → Fin S16x32x256x256.rank)
  reducesTo_S16x32x256x256_S16x32_d2_3 : S16x32x256x256.ReducesTo [2, 3] S16x32
  bcast_S_S16x32 : S_.BroadcastsInDim S16x32 (![] : Fin 0 → Fin S16x32.rank)

variable [Facts₀]

class Facts : Prop extends Facts₀ where

variable [Facts]
-- ==== Proof.Consts.lean ====
/-
  The float words the two programs spell, as the extended reals they denote.

  The reference divides by the word of 0.6, which is the dyadic 5033165 / 8388608 (a little above 3/5), and
  by 65536; its square root is a power with exponent 1/2. The kernel multiplies by the word of 2⁻¹⁶.
  Each is evaluated here once, so that no other module unfolds a bit pattern.
-/
import Idealize.ShloMosaic.PureOps.Ideal

noncomputable section

namespace Cert.Consts

open Idealize.ShloMosaic

/-- The exponent of the reference's power: one half. -/
theorem ofBits_half : Ideal.ofBits .f32 0x3F000000#32 = ((1 / 2 : ℝ) : EReal) := by
  simp [Ideal.ofBits, Ideal.ieee, -EReal.coe_mul]; norm_num

/-- The reference's divisor under the exponential: the f32 nearest 0.6, exactly 5033165 / 8388608. -/
theorem ofBits_denom : Ideal.ofBits .f32 0x3F19999A#32 = ((5033165 / 8388608 : ℝ) : EReal) := by
  simp [Ideal.ofBits, Ideal.ieee, -EReal.coe_mul]; norm_num

/-- The reference's last divisor: the number of pixels, 256 · 256. -/
theorem ofBits_pixels : Ideal.ofBits .f32 0x47800000#32 = ((65536 : ℝ) : EReal) := by
  simp [Ideal.ofBits, Ideal.ieee, -EReal.coe_mul]; norm_num

/-- The kernel's last factor: one over the number of pixels, a power of two and so exact. -/
theorem ofBits_inv_pixels : Ideal.ofBits .f32 0x37800000#32 = ((1 / 65536 : ℝ) : EReal) := by
  simp [Ideal.ofBits, Ideal.ieee, -EReal.coe_mul]; norm_num

end Cert.Consts

end
-- ==== Proof.Spec.lean ====
/-
  The mathematics both programs compute, on the extended reals, with no program in sight.

  For a pixel with channels (x₀, x₁, x₂) and a prototype (p₀, p₁, p₂) the squared distance is
  s = (x₀ - p₀)² + (x₁ - p₁)² + (x₂ - p₂)², and the pixel's weight is exp(-√s / D), where D is the f32 word of 0.6,
  that is D = 5033165 / 8388608. The result at (image, prototype) is the mean of the weights over the 256 · 256 pixels.

  The kernel writes the weight as exp(√s · c) with c = -1/D = -8388608 / 5033165 and the mean as a product with 2⁻¹⁶; the
  reference writes the root as the power s ^ (1/2), negates it, divides by D, and divides the sum by 65536. The two
  weights are one function on every extended real: s is never negative (a square of an extended real is not, ⊥ · ⊥ = ⊤
  included), on the non-negative extended reals the power 1/2 is the root, and multiplying by -1/D is negating and
  dividing by D, at ⊤ too. So no finiteness of the inputs is used.
-/
import proofs.«124392_j65910568124951_1_alg».proof.Proof.Consts
import Idealize.ShloMosaic.PureOps.Ideal
import Mathlib.Analysis.SpecialFunctions.Pow.Real
import Mathlib.Analysis.SpecialFunctions.Sqrt

noncomputable section

namespace Cert.Spec

open Idealize.ShloMosaic

/-- The kernel's factor under the exponential: minus one over the reference's divisor. -/
def negInvDenom : EReal := ((-8388608 / 5033165 : ℝ) : EReal)

/-- The reference's divisor under the exponential: the f32 word of 0.6. -/
def denom : EReal := ((5033165 / 8388608 : ℝ) : EReal)

/-- The squared distance between a pixel and a prototype, as the kernel adds it: channel by channel, left to right. -/
def sqdist (x0 x1 x2 p0 p1 p2 : EReal) : EReal :=
  (x0 - p0) * (x0 - p0) + (x1 - p1) * (x1 - p1) + (x2 - p2) * (x2 - p2)

/-- A pixel's weight as the kernel computes it: exp(√s · (-1/D)). -/
def weightK (x0 x1 x2 p0 p1 p2 : EReal) : EReal :=
  Ideal.exp (Ideal.sqrt (sqdist x0 x1 x2 p0 p1 p2) * negInvDenom)

/-- A pixel's weight as the reference computes it: exp(-(s ^ (1/2)) / D), its sum over the channels started at 0. -/
def weightR (x0 x1 x2 p0 p1 p2 : EReal) : EReal :=
  Ideal.exp (Ideal.div (-(Ideal.pow (0 + ((x0 - p0) * (x0 - p0) + (x1 - p1) * (x1 - p1) + (x2 - p2) * (x2 - p2)))
    ((1 / 2 : ℝ) : EReal))) denom)

/-- A square of an extended real is not negative. -/
theorem mul_self_nonneg (a : EReal) : 0 ≤ a * a := by
  rcases le_total 0 a with h | h
  · exact EReal.mul_nonneg h h
  · have h' : 0 ≤ -a := by rw [EReal.neg_nonneg]; exact h
    have := EReal.mul_nonneg h' h'
    rwa [neg_mul_neg] at this

theorem sqdist_nonneg (x0 x1 x2 p0 p1 p2 : EReal) : 0 ≤ sqdist x0 x1 x2 p0 p1 p2 :=
  add_nonneg (add_nonneg (mul_self_nonneg _) (mul_self_nonneg _)) (mul_self_nonneg _)

/-- On the non-negative extended reals the power with exponent one half is the square root (at ⊤ both are ⊤). -/
theorem pow_half_eq_sqrt (s : EReal) (hs : 0 ≤ s) : Ideal.pow s ((1 / 2 : ℝ) : EReal) = Ideal.sqrt s := by
  induction s using EReal.rec with
  | bot => exact absurd hs (not_le.2 EReal.bot_lt_zero)
  | coe r =>
    have hr : 0 ≤ r := by exact_mod_cast hs
    rw [Ideal.pow_coe_coe, Ideal.sqrt_coe, if_neg (not_lt.2 hr)]
    exact congrArg (fun t : ℝ => (t : EReal)) (Real.sqrt_eq_rpow r).symm
  | top =>
    rw [Ideal.pow_top, Ideal.sqrt_top, if_pos]
    exact_mod_cast (by norm_num : (0 : ℝ) < 1 / 2)

/-- Negating and dividing by D is multiplying by -1/D, on every extended real. -/
theorem neg_div_denom (n : EReal) : Ideal.div (-n) denom = n * negInvDenom := by
  unfold denom negInvDenom
  rw [Ideal.div_coe (by norm_num : (5033165 / 8388608 : ℝ) ≠ 0), neg_mul, ← mul_neg, ← EReal.coe_neg]
  congr 2
  norm_num

/-- The two weights are one function. -/
theorem weightR_eq_weightK (x0 x1 x2 p0 p1 p2 : EReal) : weightR x0 x1 x2 p0 p1 p2 = weightK x0 x1 x2 p0 p1 p2 := by
  unfold weightR weightK
  rw [zero_add]
  change Ideal.exp (Ideal.div (-(Ideal.pow (sqdist x0 x1 x2 p0 p1 p2) _)) denom) = _
  rw [pow_half_eq_sqrt _ (sqdist_nonneg ..), neg_div_denom]

/-- The mean over the 65536 pixels: a product with 2⁻¹⁶ is a quotient by 65536. -/
theorem mul_inv_pixels (y : EReal) : y * ((1 / 65536 : ℝ) : EReal) = Ideal.div y ((65536 : ℝ) : EReal) :=
  (Ideal.div_coe (by norm_num : (65536 : ℝ) ≠ 0) y).symm

end Cert.Spec

end
-- ==== Proof.Payload.lean ====
/-
  What the body's four stored values are, entry by entry, on the extended reals.

  From a block x of 8 images × 3 channels × 16 rows × 256 columns and the 32 × 3 prototypes P the body forms, for image b
  and prototype p, the sum over the 16 rows r and the 256 columns w of the weight of pixel (r, w) of image b against
  prototype p: first over the columns, then over the rows. The slices, casts and broadcasts only re-index: entry
  (b, p, r, w) of channel k's broadcast difference is x(b, k, r, w) - P(p, k). The other three values are the zero block,
  the running block plus the partial sums, and the running block times 2⁻¹⁶.
-/
import proofs.«124392_j65910568124951_1_alg».proof.Proof.Gen.KernelIdeal.Skeleton
import proofs.«124392_j65910568124951_1_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx
open scoped BigOperators

/-- The exponential of a vector, read at an index. -/
theorem vexp_apply {s : Shape} {φ : FTy} (a : FVec Ideal s φ) (i : s.Idx) :
    Idealize.ShloMosaic.exp a i = Ideal.exp (a i) := rfl

/-- The square root of a vector, read at an index. -/
theorem vsqrt_apply {s : Shape} {φ : FTy} (a : FVec Ideal s φ) (i : s.Idx) :
    Idealize.ShloMosaic.sqrt a i = Ideal.sqrt (a i) := rfl

/-- Channel k of the block, cut out, squeezed, unsqueezed and broadcast over the prototypes, read at (b, p, r, w): the
    block at (b, k, r, w). -/
theorem chan_apply {α : Type} (x : S8x3x16x256.Idx → α) (kN : Nat) (k : Fin 3) (hk : k.val = kN)
    (hs : S8x3x16x256.Slices ![0, kN, 0, 0] S8x1x16x256) (h1 : S8x1x16x256.ShapeCasts S8x16x256)
    (h2 : S8x16x256.ShapeCasts S8x1x16x256) (hb : S8x1x16x256.Broadcasts S8x32x16x256)
    (b : Fin 8) (p : Fin 32) (r : Fin 16) (w : Fin 256) :
    broadcastTo S8x32x16x256 (shapeCast S8x1x16x256 (shapeCast S8x16x256
      (extractStridedSlice S8x1x16x256 ![0, kN, 0, 0] x hs) h1) h2) hb (ix4 b p r w) = x (ix4 b k r w) := by
  rw [shapeCast_shapeCast]
  refine (broadcastTo_apply _ hb (ix4 b p r w) (ix4 b (0 : Fin 1) r w) (fun a => ?_)).trans ?_
  · match a with
    | ⟨0, _⟩ => show b.val = if (8 : Nat) = 1 then 0 else b.val; rw [if_neg (by decide)]
    | ⟨1, _⟩ => show 0 = if (1 : Nat) = 1 then 0 else p.val; rw [if_pos rfl]
    | ⟨2, _⟩ => show r.val = if (16 : Nat) = 1 then 0 else r.val; rw [if_neg (by decide)]
    | ⟨3, _⟩ => show w.val = if (256 : Nat) = 1 then 0 else w.val; rw [if_neg (by decide)]
  · refine extractStridedSlice_apply _ x hs (ix4 b (0 : Fin 1) r w) (ix4 b k r w) (fun a => ?_)
    match a with
    | ⟨0, _⟩ => show b.val = 0 + b.val; omega
    | ⟨1, _⟩ => show k.val = kN + 0; omega
    | ⟨2, _⟩ => show r.val = 0 + r.val; omega
    | ⟨3, _⟩ => show w.val = 0 + w.val; omega

/-- Column k of the prototypes, cut out, flattened, reshaped and broadcast over images and pixels, read at (b, p, r, w):
    the prototypes at (p, k). -/
theorem proto_apply {α : Type} (P : S32x3.Idx → α) (kN : Nat) (k : Fin 3) (hk : k.val = kN)
    (hs : S32x3.Slices ![0, kN] S32x1) (h1 : S32x1.ShapeCasts S32) (h2 : S32.ShapeCasts S1x32x1x1)
    (hb : S1x32x1x1.Broadcasts S8x32x16x256) (b : Fin 8) (p : Fin 32) (r : Fin 16) (w : Fin 256) :
    broadcastTo S8x32x16x256 (shapeCast S1x32x1x1 (shapeCast S32
      (extractStridedSlice S32x1 ![0, kN] P hs) h1) h2) hb (ix4 b p r w) = P (ix2 p k) := by
  refine (broadcastTo_apply _ hb (ix4 b p r w) (ix4 (0 : Fin 1) p (0 : Fin 1) (0 : Fin 1)) (fun a => ?_)).trans ?_
  · match a with
    | ⟨0, _⟩ => show 0 = if (1 : Nat) = 1 then 0 else b.val; rw [if_pos rfl]
    | ⟨1, _⟩ => show p.val = if (32 : Nat) = 1 then 0 else p.val; rw [if_neg (by decide)]
    | ⟨2, _⟩ => show 0 = if (1 : Nat) = 1 then 0 else r.val; rw [if_pos rfl]
    | ⟨3, _⟩ => show 0 = if (1 : Nat) = 1 then 0 else w.val; rw [if_pos rfl]
  refine (shapeCast_apply _ h2 (ix4 (0 : Fin 1) p (0 : Fin 1) (0 : Fin 1)) (ix1 p) ?_).trans ?_
  · rw [Shape.rowMajor_val_one, Shape.rowMajor_val_four]
    show p.val = ((0 * 32 + p.val) * 1 + 0) * 1 + 0
    omega
  refine (shapeCast_apply _ h1 (ix1 p) (ix2 p (0 : Fin 1)) ?_).trans ?_
  · rw [Shape.rowMajor_val_one, Shape.rowMajor_val_two]
    show p.val * 1 + 0 = p.val
    omega
  refine extractStridedSlice_apply _ P hs (ix2 p (0 : Fin 1)) (ix2 p k) (fun a => ?_)
  match a with
  | ⟨0, _⟩ => show p.val = 0 + p.val; omega
  | ⟨1, _⟩ => show k.val = kN + 0; omega

/-- The named factor under the exponential denotes minus one over the reference's divisor. -/
theorem scale_eq : Named.named (F := Ideal) Cert.KernelIdeal.κ "neg_inv_2gw" (φ := .f32) 0xBFD55555#32 = Spec.negInvDenom :=
  IdealRules.named_const.ideal_named_scalar _ _ _ _ rfl

/-- THE PARTIAL SUMS: entry (b, p) of the value the body adds to the running block is the sum over the block's 16 rows and
    256 columns of the weight of that pixel of image b against prototype p. -/
theorem partial_apply (x : Vec Ideal S8x3x16x256 .f32) (P : Vec Ideal S32x3 .f32) (b : Fin 8) (p : Fin 32) :
    k0_pay4 (F := Ideal) x P (ix2 b p)
      = ∑ r : Fin 16, ∑ w : Fin 256, Spec.weightK (x (ix4 b 0 r w)) (x (ix4 b 1 r w)) (x (ix4 b 2 r w))
          (P (ix2 p 0)) (P (ix2 p 1)) (P (ix2 p 2)) := by
  unfold k0_pay4
  dsimp only
  refine (Ideal.multiReduction_add_single _ _ _ _ _ (ix2 b p)).trans ?_
  show ∑ r : Fin 16, _ = ∑ r : Fin 16, _
  refine Finset.sum_congr rfl fun r _ => ?_
  refine (Ideal.multiReduction_add_single _ _ _ _ _ _).trans ?_
  show ∑ w : Fin 256, _ = ∑ w : Fin 256, _
  refine Finset.sum_congr rfl fun w _ => ?_
  have hidx : (Facts₀.reduces_S8x32x16x256_S8x32x16).lift ((Facts₀.reduces_S8x32x16_S8x32).lift (ix2 b p) r) w = ix4 b p r w :=
    funext fun a => Fin.ext (by match a with | ⟨0, _⟩ => rfl | ⟨1, _⟩ => rfl | ⟨2, _⟩ => rfl | ⟨3, _⟩ => rfl)
  rw [hidx]
  simp only [vexp_apply, vsqrt_apply, mulf_apply, addf_apply, subf_apply, broadcast_apply, scale_eq,
    chan_apply x 0 0 rfl, chan_apply x 1 1 rfl, chan_apply x 2 2 rfl,
    proto_apply P 0 0 rfl, proto_apply P 1 1 rfl, proto_apply P 2 2 rfl]
  rfl

/-- The zero block. -/
theorem zero_apply (i : S8x32.Idx) : (k0_pay3 (F := Ideal)) i = 0 := by
  unfold k0_pay3
  show Ideal.ofBits .f32 0x00000000#32 = 0
  exact Ideal.ofBits_zero_f32

/-- The running block plus the partial sums. -/
theorem add_apply (part : FVec Ideal S8x32 .f32) (acc : Vec Ideal S8x32 .f32) (i : S8x32.Idx) :
    k0_pay1 (F := Ideal) part acc i = acc i + part i := by
  unfold k0_pay1
  rw [shapeCast_self]
  rfl

/-- The running block times 2⁻¹⁶. -/
theorem scale_apply (acc : Vec Ideal S8x32 .f32) (i : S8x32.Idx) :
    k0_pay2 (F := Ideal) acc i = acc i * ((1 / 65536 : ℝ) : EReal) := by
  unfold k0_pay2
  rw [shapeCast_self]
  show acc i * Ideal.ofBits .f32 0x37800000#32 = _
  rw [Consts.ofBits_inv_pixels]

end Cert.KernelIdeal.Payload

end
-- ==== Proof.Blocks.lean ====
/-
  The input blocks read at an index. Grid point t = 16 · (t / 16) + (t % 16) works on the batch tile t / 16 and the row tile
  t % 16: its block of the images is images 8 · (t / 16) … + 7, all three channels, rows 16 · (t % 16) … + 15, all columns; its
  block of the prototypes is the whole 32 × 3 array.
-/
import proofs.«124392_j65910568124951_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The images as the region finds them. -/
abbrev xarr (c : Dev nD) : Vec Ideal S16x3x256x256 .f32 := V m c main_arg0
/-- The prototypes as the region finds them. -/
abbrev parr (c : Dev nD) : Vec Ideal S32x3 .f32 := V m c main_arg1
/-- Point t's block of the images. -/
abbrev xblk (c : Dev nD) (t : Fin cfg0.N) : Vec Ideal S8x3x16x256 .f32 := iblk m c 0 t
/-- Point t's block of the prototypes. -/
abbrev pblk (c : Dev nD) (t : Fin cfg0.N) : Vec Ideal S32x3 .f32 := iblk m c 1 t

/-- The printed index maps, decided over the grid: the images' block index at point t is (t / 16, 0, t % 16, 0), the
    prototypes' is (0, 0). -/
theorem idx_facts : ∀ t : Fin cfg0.N,
    win0_0.index t (0 : Fin 4) = t.val / 16 ∧ win0_0.index t (1 : Fin 4) = 0 ∧ win0_0.index t (2 : Fin 4) = t.val % 16
    ∧ win0_0.index t (3 : Fin 4) = 0 ∧ win0_1.index t (0 : Fin 2) = 0 ∧ win0_1.index t (1 : Fin 2) = 0 :=
  (by decide +kernel : ∀ t : Fin grid0.N, _)

/-- The image row a block's row is: inside the array. -/
theorem row_lt (t : Fin cfg0.N) (r : Fin 16) : 16 * (t.val % 16) + r.val < 256 := by
  have := r.isLt; have := Nat.mod_lt t.val (by decide : 0 < 16); omega

/-- The image a block's image is: inside the array. -/
theorem img_lt (t : Fin cfg0.N) (b : Fin 8) : 8 * (t.val / 16) + b.val < 16 := by
  have := b.isLt; have hN : t.val < 32 := lt_of_lt_of_eq t.isLt (show cfg0.N = 32 from N_0); omega

/-- Point t's block of the images at (b, k, r, w) is the images at (8 · (t / 16) + b, k, 16 · (t % 16) + r, w). -/
theorem xblk_apply (c : Dev nD) (t : Fin cfg0.N) (b : Fin 8) (k : Fin 3) (r : Fin 16) (w : Fin 256) :
    xblk m c t (ix4 b k r w) = xarr m c (ix4 ⟨8 * (t.val / 16) + b.val, img_lt t b⟩ k ⟨16 * (t.val % 16) + r.val, row_lt t r⟩ w) := by
  obtain ⟨e0, e1, e2, e3, -, -⟩ := idx_facts t
  show V m c main_arg0 (((cfg0.win 0).blk t).view.emb (ix4 b k r w)) = V m c main_arg0 _
  refine congrArg _ (funext fun a => Fin.ext ?_)
  match a with
  | ⟨0, _⟩ => show win0_0.index t (0 : Fin 4) * 8 + 1 * b.val = 8 * (t.val / 16) + b.val; omega
  | ⟨1, _⟩ => show win0_0.index t (1 : Fin 4) * 3 + 1 * k.val = k.val; omega
  | ⟨2, _⟩ => show win0_0.index t (2 : Fin 4) * 16 + 1 * r.val = 16 * (t.val % 16) + r.val; omega
  | ⟨3, _⟩ => show win0_0.index t (3 : Fin 4) * 256 + 1 * w.val = w.val; omega

/-- The same at a point written 16 · q + s: the images at (8 · q + b, k, 16 · s + r, w). -/
theorem xblk_apply_at (c : Dev nD) (t : Fin cfg0.N) (q s : ℕ) (hq : t.val / 16 = q) (hs : t.val % 16 = s)
    (b : Fin 8) (k : Fin 3) (r : Fin 16) (w : Fin 256) (hb : 8 * q + b.val < 16) (hr : 16 * s + r.val < 256) :
    xblk m c t (ix4 b k r w) = xarr m c (ix4 ⟨8 * q + b.val, hb⟩ k ⟨16 * s + r.val, hr⟩ w) := by
  subst hq hs
  exact xblk_apply m c t b k r w

/-- Point t's block of the prototypes is the prototypes. -/
theorem pblk_apply (c : Dev nD) (t : Fin cfg0.N) (p : Fin 32) (k : Fin 3) :
    pblk m c t (ix2 p k) = parr m c (ix2 p k) := by
  obtain ⟨-, -, -, -, e0, e1⟩ := idx_facts t
  show V m c main_arg1 (((cfg0.win 1).blk t).view.emb (ix2 p k)) = V m c main_arg1 _
  refine congrArg _ (funext fun a => Fin.ext ?_)
  match a with
  | ⟨0, _⟩ => show win0_1.index t (0 : Fin 2) * 32 + 1 * p.val = p.val; omega
  | ⟨1, _⟩ => show win0_1.index t (1 : Fin 2) * 3 + 1 * k.val = k.val; omega

end Cert.KernelIdeal.Blocks

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.KernelValue.lean ====
/-
  The kernel's result array, entry by entry.

  Image B lies in batch tile q = B / 8 at place bb = B % 8. The 16 grid points 16 · q … 16 · q + 15 are that tile's run over the
  row tiles: the first stores 0 plus its partial sums, each later one adds its own, and the last one, after adding, multiplies
  by 2⁻¹⁶. Point 16 · q + s contributes, at (bb, p), the sum over the rows 16 · s … 16 · s + 15 of the row sums of image B
  against prototype p; sixteen blocks of sixteen consecutive rows are the 256 rows. So the array ends holding at (B, p)
  (0 + the sum over all rows of the row sums) · 2⁻¹⁶.
-/
import proofs.«124392_j65910568124951_1_alg».proof.Proof.Gen.KernelIdeal.Value
import proofs.«124392_j65910568124951_1_alg».proof.Proof.Payload
import proofs.«124392_j65910568124951_1_alg».proof.Proof.Blocks
import proofs.«124392_j65910568124951_1_alg».proof.Proof.LibBlockSum

noncomputable section

namespace Cert.KernelIdeal.KValue

open Cert.KernelIdeal Cert.KernelIdeal.Gen Cert.KernelIdeal.Value Cert.KernelIdeal.Blocks Cert.KernelIdeal.Payload
open Idealize.ShloMosaic Idealize.ShloMosaic.TcCoe Idealize.SL.Sem Idealize.ShloMosaic.ValueIdx
open scoped BigOperators

variable (m : (ℓ : Loc nD τ sig) → Buf (Elt Ideal) ℓ)

/-- The sum over the 256 columns of row h of the weights of image B against prototype p. -/
def rowsum (x : Vec Ideal S16x3x256x256 .f32) (P : Vec Ideal S32x3 .f32) (B : Fin 16) (p : Fin 32) (h : Fin 256) : EReal :=
  ∑ w : Fin 256, Spec.weightK (x (ix4 B 0 h w)) (x (ix4 B 1 h w)) (x (ix4 B 2 h w)) (P (ix2 p 0)) (P (ix2 p 1)) (P (ix2 p 2))

/-- What grid point n adds to the running block: its partial sums (nothing past the grid). -/
def addend (c : Dev nD) (n : ℕ) (i : S8x32.Idx) : EReal :=
  if h : n < cfg0.N then k0_pay4 (F := Ideal) (xblk m c ⟨n, h⟩) (pblk m c ⟨n, h⟩) i else 0

/-- Point 16 · q + s adds, at (bb, p), the row sums of image 8 · q + bb over the rows 16 · s … 16 · s + 15. -/
theorem addend_apply (c : Dev nD) (q s : ℕ) (hq : q < 2) (hs : s < 16) (bb : Fin 8) (p : Fin 32)
    (hb : 8 * q + bb.val < 16) (hr : ∀ r : Fin 16, 16 * s + r.val < 256) :
    addend m c (16 * q + s) (ix2 bb p)
      = ∑ r : Fin 16, rowsum (xarr m c) (parr m c) ⟨8 * q + bb.val, hb⟩ p ⟨16 * s + r.val, hr r⟩ := by
  have hn : 16 * q + s < cfg0.N := by rw [show cfg0.N = 32 from N_0]; omega
  unfold addend
  rw [dif_pos hn, partial_apply]
  refine Finset.sum_congr rfl fun r _ => ?_
  unfold rowsum
  refine Finset.sum_congr rfl fun w _ => ?_
  have e1 : (⟨16 * q + s, hn⟩ : Fin cfg0.N).val / 16 = q := by show (16 * q + s) / 16 = q; omega
  have e2 : (⟨16 * q + s, hn⟩ : Fin cfg0.N).val % 16 = s := by show (16 * q + s) % 16 = s; omega
  rw [xblk_apply_at m c _ q s e1 e2 bb 0 r w hb (hr r), xblk_apply_at m c _ q s e1 e2 bb 1 r w hb (hr r),
    xblk_apply_at m c _ q s e1 e2 bb 2 r w hb (hr r), pblk_apply, pblk_apply, pblk_apply]

/-- In the middle of a run a point adds its partial sums to what the point before left. -/
theorem step_mid (c : Dev nD) (n : ℕ) (h : n < cfg0.N) (acc : Vec Ideal S8x32 .f32) (h0 : ¬n % 16 = 0) (h15 : ¬n % 16 = 15)
    (i : S8x32.Idx) : step2 m c n h acc i = acc i + addend m c n i := by
  unfold step2 addend
  rw [if_pos ⟨h0, h15⟩, dif_pos h, add_apply]

/-- The last point of a run adds its partial sums and multiplies by 2⁻¹⁶. -/
theorem step_last (c : Dev nD) (n : ℕ) (h : n < cfg0.N) (acc : Vec Ideal S8x32 .f32) (h0 : ¬n % 16 = 0) (h15 : n % 16 = 15)
    (i : S8x32.Idx) : step2 m c n h acc i = (acc i + addend m c n i) * ((1 / 65536 : ℝ) : EReal) := by
  unfold step2 addend
  rw [if_neg (fun hh => hh.2 h15), if_pos ⟨h0, h15⟩, dif_pos h, scale_apply, add_apply]

/-- The first point of a run leaves 0 plus its partial sums. -/
theorem reset_apply (c : Dev nD) (n : ℕ) (h : n < cfg0.N) (i : S8x32.Idx) :
    reset2 m c n h i = 0 + addend m c n i := by
  unfold reset2 addend
  rw [dif_pos h, add_apply, zero_apply]

/-- After the first fifteen points of run q the block holds 0 plus their addends. -/
theorem fold14 (c : Dev nD) (q : ℕ) (h : 16 * q + 14 < cfg0.N) (i : S8x32.Idx) :
    Pipeline.accAt (reset2 m c) (step2 m c) (16 * q) 14 h i = 0 + ∑ s ∈ Finset.range 15, addend m c (16 * q + s) i :=
  Pipeline.accAt_add_apply (reset2 m c) (step2 m c) (fun _ => 0) (addend m c) (16 * q) 14
    (fun hb i => reset_apply m c (16 * q) hb i)
    (fun n hn acc i h1 h2 => step_mid m c n hn acc (by omega) (by omega) i)
    14 (le_refl _) h i

/-- After its last point run q's block holds (0 plus all sixteen addends) · 2⁻¹⁶. -/
theorem fold15 (c : Dev nD) (q : ℕ) (h : 16 * q + 15 < cfg0.N) (i : S8x32.Idx) :
    Pipeline.accAt (reset2 m c) (step2 m c) (16 * q) 15 h i
      = (0 + ∑ s ∈ Finset.range 16, addend m c (16 * q + s) i) * ((1 / 65536 : ℝ) : EReal) := by
  rw [Pipeline.accAt_succ, step_last m c _ _ _ (by omega) (by omega), fold14, Finset.sum_range_succ _ 15, add_assoc]

/-- THE RESULT ARRAY at (B, p): (0 + the sum over the 256 rows of the row sums of image B against prototype p) · 2⁻¹⁶. -/
theorem G2_apply (c : Dev nD) (B : Fin 16) (p : Fin 32) :
    Value.G2 m c (ix2 B p) = (0 + ∑ h : Fin 256, rowsum (xarr m c) (parr m c) B p h) * ((1 / 65536 : ℝ) : EReal) := by
  have hB := B.isLt
  have hp := p.isLt
  have hrun : run2Of (ix2 B p) = B.val / 8 := by
    show 1 * (B.val / 8 - 0) + 1 * (p.val / 32 - 0) = B.val / 8
    omega
  have hloc : loc2Of (ix2 B p) = ix2 (⟨B.val % 8, Nat.mod_lt _ (by decide)⟩ : Fin 8) p :=
    funext fun a => Fin.ext (by
      match a with
      | ⟨0, _⟩ => rfl
      | ⟨1, _⟩ => show p.val % 32 = p.val; omega)
  have hlt : 16 * run2Of (ix2 B p) + 15 < cfg0.N := by rw [hrun, show cfg0.N = 32 from N_0]; omega
  unfold Value.G2
  rw [dif_pos hlt, hloc]
  have key : ∀ (b : ℕ) (hb : b = B.val / 8) (h : 16 * b + 15 < cfg0.N),
      Pipeline.accAt (reset2 m c) (step2 m c) (16 * b) 15 h (ix2 (⟨B.val % 8, Nat.mod_lt _ (by decide)⟩ : Fin 8) p)
        = (0 + ∑ h : Fin 256, rowsum (xarr m c) (parr m c) B p h) * ((1 / 65536 : ℝ) : EReal) := by
    intro b hb h
    subst hb
    rw [fold15, Finset.sum_range]
    refine congrArg (fun t => (0 + t) * ((1 / 65536 : ℝ) : EReal)) ?_
    have hBq : (⟨8 * (B.val / 8) + B.val % 8, by omega⟩ : Fin 16) = B := Fin.ext (by show 8 * (B.val / 8) + B.val % 8 = B.val; omega)
    calc ∑ s : Fin 16, addend m c (16 * (B.val / 8) + s.val) (ix2 (⟨B.val % 8, Nat.mod_lt _ (by decide)⟩ : Fin 8) p)
        = ∑ s : Fin 16, ∑ r : Fin 16, (fun n : Fin (16 * 16) => rowsum (xarr m c) (parr m c) B p ⟨n.val, n.isLt⟩)
            ⟨16 * s.val + r.val, BlockSum.block_lt s r⟩ := by
          refine Finset.sum_congr rfl fun s _ => ?_
          rw [addend_apply m c (B.val / 8) s.val (by omega) s.isLt ⟨B.val % 8, Nat.mod_lt _ (by decide)⟩ p (by show 8 * (B.val / 8) + B.val % 8 < 16; omega)
            (fun r => by have := r.isLt; have := s.isLt; omega)]
          refine Finset.sum_congr rfl fun r _ => ?_
          show rowsum (xarr m c) (parr m c) ⟨8 * (B.val / 8) + B.val % 8, _⟩ p _ = _
          rw [hBq]
      _ = ∑ n : Fin (16 * 16), rowsum (xarr m c) (parr m c) B p ⟨n.val, n.isLt⟩ := BlockSum.sum_blocks 16 16 _
      _ = ∑ h : Fin 256, rowsum (xarr m c) (parr m c) B p h := rfl
  exact key _ hrun hlt

end Cert.KernelIdeal.KValue

end
-- ==== Proof.LibReduce4.lean ====
/-
  A host sum over the last two axes of a rank-4 array of extended reals, read at an index of the rank-2 result: the
  initial value plus the double sum, over the third and fourth coordinates, of the array at (i, j, r, col). Any sizes.

  The indices of the array whose first two coordinates are (i, j) are exactly the quadruples (i, j, r, col); they are
  the image of the pairs (r, col) under an injection, so the sum over them is the sum over the pairs, which is the
  double sum.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Group.Finset.Sigma
import Mathlib.Data.Fintype.BigOperators

noncomputable section

namespace Cert.LibReduce4

open Idealize.ShloMosaic Idealize.ShloMosaic.ValueIdx
open scoped BigOperators

variable {a b c d : ℕ}

/-- Dropping the last two coordinates of (i, j, r, col) leaves (i, j). -/
theorem drop_ix4 (h : (⟨4, ![a, b, c, d]⟩ : Shape).ReducesTo [2, 3] ⟨2, ![a, b]⟩) (i : Fin a) (j : Fin b) (r : Fin c)
    (col : Fin d) : h.drop (ix4 i j r col) = ix2 i j := by
  funext e
  match e with
  | ⟨0, _⟩ => rfl
  | ⟨1, _⟩ => rfl

/-- An index whose last two coordinates dropped leave (i, j) is (i, j, its third coordinate, its fourth coordinate). -/
theorem eq_ix4_of_drop (h : (⟨4, ![a, b, c, d]⟩ : Shape).ReducesTo [2, 3] ⟨2, ![a, b]⟩) (i : Fin a) (j : Fin b)
    (idx : (⟨4, ![a, b, c, d]⟩ : Shape).Idx) (hd : h.drop idx = ix2 i j) : idx = ix4 i j (idx 2) (idx 3) := by
  have h0 : idx 0 = i := Fin.ext (congrArg Fin.val (congrFun hd ⟨0, Nat.zero_lt_two⟩))
  have h1 : idx 1 = j := Fin.ext (congrArg Fin.val (congrFun hd ⟨1, Nat.one_lt_two⟩))
  rw [← h0, ← h1]
  exact eq_ix4 idx

/-- The pairs (r, col) as the quadruples (i, j, r, col): an injection. -/
def pairEmb (i : Fin a) (j : Fin b) : Fin c × Fin d ↪ (⟨4, ![a, b, c, d]⟩ : Shape).Idx :=
  ⟨fun p => ix4 i j p.1 p.2, fun p q hpq => by
    have h2 : p.1 = q.1 := congrFun hpq 2
    have h3 : p.2 = q.2 := congrFun hpq 3
    exact Prod.ext h2 h3⟩

/-- The indices that drop to (i, j) are the image of the pairs. -/
theorem filter_drop (h : (⟨4, ![a, b, c, d]⟩ : Shape).ReducesTo [2, 3] ⟨2, ![a, b]⟩) (i : Fin a) (j : Fin b) :
    Finset.univ.filter (fun idx : (⟨4, ![a, b, c, d]⟩ : Shape).Idx => h.drop idx = ix2 i j)
      = Finset.univ.map (pairEmb (a := a) (b := b) (c := c) (d := d) i j) := by
  ext idx
  simp only [Finset.mem_filter, Finset.mem_univ, true_and, Finset.mem_map, pairEmb, Function.Embedding.coeFn_mk]
  constructor
  · intro hd
    exact ⟨(idx 2, idx 3), (eq_ix4_of_drop h i j idx hd).symm⟩
  · rintro ⟨p, hp⟩
    rw [← hp]
    exact drop_ix4 h i j p.1 p.2

/-- The host sum over the last two axes, read at (i, j): the initial value plus the double sum over (r, col) of the
    array at (i, j, r, col). -/
theorem hostReduceAdd_axes23_apply {φ : FTy} {u : Shape} (x : (⟨4, ![a, b, c, d]⟩ : Shape).Idx → EReal)
    (init : u.Idx → EReal) (h : (⟨4, ![a, b, c, d]⟩ : Shape).ReducesTo [2, 3] ⟨2, ![a, b]⟩) (hu : 0 < u.numel)
    (i : Fin a) (j : Fin b) :
    Host.reduceAdd (F := Ideal) (φ := φ) x init h hu (ix2 i j)
      = init (Shape.Idx.first hu) + ∑ r : Fin c, ∑ col : Fin d, x (ix4 i j r col) := by
  show Ideal.hostReduceAdd h x (init (Shape.Idx.first hu)) (ix2 i j) = _
  unfold Ideal.hostReduceAdd
  rw [filter_drop, Finset.sum_map, Fintype.sum_prod_type]
  rfl

end Cert.LibReduce4

end
-- ==== Proof.RefValue.lean ====
/-
  The reference at an index. Its result at (image B, prototype p) is the quotient by 65536 of the sum, started at 0, over the
  256 · 256 pixels (h, w) of the weight of pixel (h, w) of image B against prototype p, the weight in the reference's own
  spelling: the channel sum started at 0, the root as a power, a negation and a quotient by the word of 0.6.

  The broadcasts only re-index: the entry (B, p, k, h, w) of the difference is x(B, k, h, w) - P(p, k).
-/
import proofs.«124392_j65910568124951_1_alg».proof.Proof.Gen.ReferenceIdeal.Read
import proofs.«124392_j65910568124951_1_alg».proof.Proof.Spec
import proofs.«124392_j65910568124951_1_alg».proof.Proof.LibReduce4
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open scoped BigOperators

variable (x : (⟨S16x3x256x256, .f32⟩ : BufTy).Contents (Elt Ideal)) (P : (⟨S32x3, .f32⟩ : BufTy).Contents (Elt Ideal))

/-- Through the two broadcasts of the images, entry (B, p, k, h, w) reads x at (B, k, h, w). -/
theorem idx_x (B : Fin 16) (p : Fin 32) (h w : Fin 256) (k : Fin 3) :
    idx_main_v0 (idx_main_v2 (idx_main_v6 (ix4 B p h w) k)) = ix4 B k h w :=
  funext fun a => Fin.ext (by match a with | ⟨0, _⟩ => rfl | ⟨1, _⟩ => rfl | ⟨2, _⟩ => rfl | ⟨3, _⟩ => rfl)

/-- Through the two broadcasts of the prototypes, entry (B, p, k, h, w) reads P at (p, k). -/
theorem idx_P (B : Fin 16) (p : Fin 32) (h w : Fin 256) (k : Fin 3) :
    idx_main_v1 (idx_main_v3 (idx_main_v6 (ix4 B p h w) k)) = ix2 p k :=
  funext fun a => Fin.ext (by match a with | ⟨0, _⟩ => rfl | ⟨1, _⟩ => rfl)

/-- The exponential's entry at (B, p, h, w) is the weight of pixel (h, w) of image B against prototype p. -/
theorem weight_apply (B : Fin 16) (p : Fin 32) (h w : Fin 256) :
    val_main_v12 (F := Ideal) x P (ix4 B p h w)
      = Spec.weightR (x (ix4 B 0 h w)) (x (ix4 B 1 h w)) (x (ix4 B 2 h w)) (P (ix2 p 0)) (P (ix2 p 1)) (P (ix2 p 2)) := by
  rw [val_main_v12_apply, val_main_v11_apply, val_main_v9_apply, val_main_v8_apply, val_main_v10_apply,
    val_main_cst_1_apply, val_main_v7_apply, val_main_cst_0_apply, val_main_v6_apply, val_main_cst_apply,
    Fin.sum_univ_three]
  simp only [val_main_v5_apply, val_main_v4_apply, val_main_v2_apply, val_main_v0_apply, val_main_v3_apply,
    val_main_v1_apply, idx_x, idx_P, Ideal.hostUnary_exp_def, Ideal.hostDivf_def, Ideal.hostNegf_def, Ideal.negf_def,
    Ideal.hostPowf_def, Ideal.mulf_def, Ideal.subf_def, Ideal.ofBits_def, Ideal.ofBits_zero_f32, Consts.ofBits_half,
    Consts.ofBits_denom]
  rfl

/-- The reference's result at (B, p): the sum of the weights over the pixels, started at 0, over 65536. -/
theorem result_apply (B : Fin 16) (p : Fin 32) :
    val_main_v15 (F := Ideal) x P (ix2 B p)
      = Ideal.div (0 + ∑ h : Fin 256, ∑ w : Fin 256,
          Spec.weightR (x (ix4 B 0 h w)) (x (ix4 B 1 h w)) (x (ix4 B 2 h w)) (P (ix2 p 0)) (P (ix2 p 1)) (P (ix2 p 2)))
          ((65536 : ℝ) : EReal) := by
  rw [val_main_v15_apply, val_main_v14_apply, val_main_cst_3_apply]
  unfold val_main_v13
  rw [LibReduce4.hostReduceAdd_axes23_apply, val_main_cst_2_apply]
  simp only [weight_apply, Ideal.hostDivf_def, Ideal.ofBits_def, Ideal.ofBits_zero_f32, Consts.ofBits_pixels]

end Cert.ReferenceIdeal.RefValue

end
-- ==== Proof.Bridge.lean ====
/-
  The two results are one function of the arguments. At (image B, prototype p) the reference holds
  (0 + the sum over rows and columns of the reference's weight) / 65536 and the kernel
  (0 + the sum over rows and columns of the kernel's weight) · 2⁻¹⁶; the weights agree pixel by pixel and a product with 2⁻¹⁶
  is a quotient by 65536.
-/
import proofs.«124392_j65910568124951_1_alg».proof.Proof.KernelValue
import proofs.«124392_j65910568124951_1_alg».proof.Proof.RefValue

noncomputable section

namespace Cert.Bridge

open Idealize.ShloMosaic Idealize.ShloMosaic.TcCoe Idealize.SL.Sem Idealize.ShloMosaic.ValueIdx
open scoped BigOperators

/-- The reference's result of the kernel's arguments is the array the kernel's run leaves. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v15 (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1))
      = Cert.KernelIdeal.Value.G2 m c := by
  funext i
  obtain ⟨B, p, rfl⟩ : ∃ (B : Fin 16) (p : Fin 32), i = ix2 B p := ⟨i 0, i 1, eq_ix2 i⟩
  rw [Cert.ReferenceIdeal.RefValue.result_apply, Cert.KernelIdeal.KValue.G2_apply, ← Spec.mul_inv_pixels]
  unfold Cert.KernelIdeal.KValue.rowsum
  simp only [Spec.weightR_eq_weightK]

end Cert.Bridge

end
-- ==== Proof.lean ====
/-
  A Gaussian prototype layer. For 16 images x of 3 channels and 256 × 256 pixels and 32 prototype pixels P, the result at
  (image B, prototype p) is the mean over the pixels (h, w) of exp(-‖x(B, ·, h, w) - P(p, ·)‖ / 0.6), the norm Euclidean over
  the three channels and 0.6 the f32 word D = 5033165 / 8388608.

  The kernel walks a grid of 2 batch tiles × 16 row tiles, adds each tile's partial sums (first over the columns, then over
  the tile's rows) into the output block of its batch tile, which it zeroes at the first row tile and multiplies by 2⁻¹⁶ after
  the last. It writes the exponent as a product of the norm with the constant -1/D, named so in the idealized program; the
  reference writes the norm as a power with exponent 1/2, negates, and divides by D, then divides the sum over all pixels by
  65536. On the extended reals these are one function of the arguments, with no condition on them:
    · a sum of three squares is never negative, and there the power 1/2 is the square root (Spec);
    · multiplying by -1/D is negating and dividing by D (Spec);
    · sixteen partial sums over sixteen consecutive rows each are the sum over the 256 rows (KernelValue), addition of
      extended reals being commutative and associative;
    · a product with 2⁻¹⁶ is a quotient by 65536 (Spec).
  The kernel's array after its run is read off its run block by block and folded over each batch tile's sixteen points
  (KernelValue, over Payload and Blocks); the reference's stages are read at an index one operation at a time (RefValue, the
  sum over the two pixel axes by LibReduce4); Bridge joins the two.
-/
import proofs.«124392_j65910568124951_1_alg».proof.Defs
import proofs.«124392_j65910568124951_1_alg».proof.Proof.Gen.Kernel
import proofs.«124392_j65910568124951_1_alg».proof.Proof.Gen.Kernel.Skeleton
import proofs.«124392_j65910568124951_1_alg».proof.Proof.Gen.Kernel.Launch
import proofs.«124392_j65910568124951_1_alg».proof.Proof.Gen.Kernel.Points
import proofs.«124392_j65910568124951_1_alg».proof.Proof.Gen.Kernel.Frame
import proofs.«124392_j65910568124951_1_alg».proof.Proof.Gen.KernelIdeal
import proofs.«124392_j65910568124951_1_alg».proof.Proof.Gen.KernelIdeal.Skeleton
import proofs.«124392_j65910568124951_1_alg».proof.Proof.Gen.KernelIdeal.Launch
import proofs.«124392_j65910568124951_1_alg».proof.Proof.Gen.KernelIdeal.Points
import proofs.«124392_j65910568124951_1_alg».proof.Proof.Gen.KernelIdeal.Frame
import proofs.«124392_j65910568124951_1_alg».proof.Proof.Gen.ReferenceIdeal
import proofs.«124392_j65910568124951_1_alg».proof.Proof.Gen.Pre_finite_inputs
import proofs.«124392_j65910568124951_1_alg».proof.Proof.Gen.KernelIdeal.Value
import proofs.«124392_j65910568124951_1_alg».proof.Proof.Gen.ReferenceIdeal.Run
import proofs.«124392_j65910568124951_1_alg».proof.Proof.Gen.ReferenceIdeal.Read
import proofs.«124392_j65910568124951_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The one rewritten constant: the factor under the exponential is named -1/D, D the reference's divisor. -/
theorem preserves : Cert.preserves_Kernel_KernelIdeal :=
  IdealRules.named_const.statement Cert.KernelIdeal.κ "neg_inv_2gw" .f32 0xBFD55555#32 ((-8388608 / 5033165 : ℝ) : EReal) rfl

/-- From memories that agree on the arguments both programs end with the same result array: the kernel's run leaves the
    folded sums, the reference's run its composed term, and the two are one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Value.G2 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.Bridge.result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
